-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S4096x16384 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S4096x16384 : Shape := ⟨2, ![4096, 16384]⟩
abbrev S16384 : Shape := ⟨1, ![16384]⟩
abbrev S8192x4096 : Shape := ⟨2, ![8192, 4096]⟩
abbrev S1x16384 : Shape := ⟨2, ![1, 16384]⟩
abbrev S4096x256 : Shape := ⟨2, ![4096, 256]⟩
abbrev S256 : Shape := ⟨1, ![256]⟩
abbrev S1x256 : Shape := ⟨2, ![1, 256]⟩
abbrev S256x4096 : Shape := ⟨2, ![256, 4096]⟩
abbrev S256x1 : Shape := ⟨2, ![256, 1]⟩
abbrev S8192x16384 : Shape := ⟨2, ![8192, 16384]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩
abbrev S4x2048x16384 : Shape := ⟨3, ![4, 2048, 16384]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S8192x4096, .f32⟩
  | .hbm, ⟨4, _⟩ => ⟨S1x16384, .f32⟩
  | .hbm, ⟨5, _⟩ => ⟨S4096x16384, .bf16⟩
  | .hbm, ⟨6, _⟩ => ⟨S8192x4096, .bf16⟩
  | .hbm, ⟨7, _⟩ => ⟨S8192x16384, .f32⟩
  | .hbm, ⟨8, _⟩ => ⟨S4x2048x16384, .f32⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x4096_S8192x4096 : S4x2048x4096.ShapeCasts S8192x4096
  shapeCasts_S16384_S1x16384 : S16384.ShapeCasts S1x16384
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  broadcasts_S1x256_S4096x256 : S1x256.Broadcasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x16384.size a
  hwx0_0 : ∀ i : grid0.Coords, EltTy.bits .f32 = 32 ∨ (Rect.block (s := S4096x16384) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x16384.size a
  hwx0_1 : ∀ i : grid0.Coords, EltTy.bits .bf16 = 32 ∨ (Rect.block (s := S4096x16384) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x16384.size a
  hwx2_1 : ∀ i : grid2.Coords, EltTy.bits .bf16 = 32 ∨ (Rect.block (s := S4096x16384) S4096x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x16384.size a
  hwx2_2 : ∀ i : grid2.Coords, EltTy.bits .f32 = 32 ∨ (Rect.block (s := S1x16384) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x16384.size a
  hwx2_3 : ∀ i : grid2.Coords, EltTy.bits .f32 = 32 ∨ (Rect.block (s := S8192x16384) S512x1024.size (cc2_transform_3 i) (hinb2_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S4096x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S16384 : Shape := ⟨1, ![16384]⟩
abbrev S_ : Shape := ⟨0, ![]⟩
abbrev S1x16384 : Shape := ⟨2, ![1, 16384]⟩
abbrev S4x2048 : Shape := ⟨2, ![4, 2048]⟩
abbrev S4x2048x1 : Shape := ⟨3, ![4, 2048, 1]⟩
abbrev S4x2048x16384 : Shape := ⟨3, ![4, 2048, 16384]⟩
abbrev S1x1x16384 : Shape := ⟨3, ![1, 1, 16384]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S4096x16384, .f32⟩
  | .hbm, ⟨4, _⟩ => ⟨S_, .f32⟩
  | .hbm, ⟨5, _⟩ => ⟨S16384, .f32⟩
  | .hbm, ⟨6, _⟩ => ⟨S1x16384, .f32⟩
  | .hbm, ⟨7, _⟩ => ⟨S_, .f32⟩
  | .hbm, ⟨8, _⟩ => ⟨S1x16384, .f32⟩
  | .hbm, ⟨9, _⟩ => ⟨S1x16384, .f32⟩
  | .hbm, ⟨10, _⟩ => ⟨S_, .f32⟩
  | .hbm, ⟨11, _⟩ => ⟨S1x16384, .f32⟩
  | .hbm, ⟨12, _⟩ => ⟨S1x16384, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .f32⟩
  | .hbm, ⟨24, _⟩ => ⟨S_, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S4096x16384, .f32⟩
  | .hbm, ⟨29, _⟩ => ⟨S4x2048x4096, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S_, .f32⟩
  | .hbm, ⟨51, _⟩ => ⟨S4x2048x4096, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | .hbm, ⟨55, _⟩ => ⟨S4x2048x16384, .f32⟩
  | .hbm, ⟨56, _⟩ => ⟨S1x1x16384, .f32⟩
  | .hbm, ⟨57, _⟩ => ⟨S4x2048x16384, .f32⟩
  | .hbm, ⟨58, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  reducesTo_S4096x16384_S16384_d0 : S4096x16384.ReducesTo [0] S16384
  h_S_ : 0 < S_.numel
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S4096x16384_S4x2048x16384_2_0_01_1_n_n_wf : DotDims.WF S4x2048x4096 S4096x16384 S4x2048x16384 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf

class Facts : Prop extends Facts₀ where

variable [Facts]
-- ==== Proof.Spec.lean ====
/-
  The mathematics both programs compute, on the extended reals.

  A group of numbers (a column of the weight matrix, a token's row of activations) is scaled by the reciprocal of its
  largest magnitude plus a small ε, clipped to ±0.999, floored and shifted by one half — so that every entry becomes ±1/2
  in scaled units — and scaled back. The layer's output at token `r` and feature `f` is the dot product of the token's
  binarized row with the feature's binarized column, plus the feature's bias.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The magnitude of an extended real. -/
def mag (x : EReal) : EReal := max x (-x)

/-- The largest magnitude in a group `g`, taken from `-∞`. -/
def peak {n : ℕ} (g : Fin n → EReal) : EReal :=
  (Finset.univ : Finset (Fin n)).fold max (Ideal.ofBits .f32 0xFF800000#32) fun k => mag (g k)

/-- The scale of a group whose largest magnitude is `mx`: `1 / (mx + ε)`, with `ε` the f32 machine epsilon. -/
def scale (mx : EReal) : EReal :=
  Ideal.div (Ideal.ofBits .f32 0x3F800000#32) (mx + Ideal.ofBits .f32 0x34000000#32)

/-- An entry `x` of a group with largest magnitude `mx`, binarized: `(⌊clip (x · s)⌋ + 1/2) / s` with `s = scale mx`
    and the clip to `[-0.999, 0.999]` (as f32 literals). -/
def bin (x mx : EReal) : EReal :=
  Ideal.div
    (Ideal.liftRound Int.floor
        (min (Ideal.ofBits .f32 0x3F7FBE77#32) (max (Ideal.ofBits .f32 0xBF7FBE77#32) (x * scale mx)))
      + Ideal.ofBits .f32 0x3F000000#32)
    (scale mx)

/-- The weight matrix `[4096, 16384]` binarized per column (per output feature), at `(d, f)`. -/
def binW (K : (⟨2, ![4096, 16384]⟩ : Shape).Idx → EReal) (d : Fin 4096) (f : Fin 16384) : EReal :=
  bin (K (ix2 d f)) (peak fun d' : Fin 4096 => K (ix2 d' f))

/-- The activations as a matrix `[8192, 4096]` of tokens binarized per row (per token), at `(r, d)`. -/
def binX2 (X : (⟨2, ![8192, 4096]⟩ : Shape).Idx → EReal) (r : Fin 8192) (d : Fin 4096) : EReal :=
  bin (X (ix2 r d)) (peak fun d' : Fin 4096 => X (ix2 r d'))

/-- The activations `[4, 2048, 4096]` binarized per token, at `(b, s, d)`. -/
def binX3 (X : (⟨3, ![4, 2048, 4096]⟩ : Shape).Idx → EReal) (b : Fin 4) (s : Fin 2048) (d : Fin 4096) : EReal :=
  bin (X (ix3 b s d)) (peak fun d' : Fin 4096 => X (ix3 b s d'))

/-- The binarized weight matrix as an array. -/
def arrW (K : (⟨2, ![4096, 16384]⟩ : Shape).Idx → EReal) : (⟨2, ![4096, 16384]⟩ : Shape).Idx → EReal :=
  fun i => binW K (i 0) (i 1)

/-- The binarized token matrix as an array. -/
def arrX2 (X : (⟨2, ![8192, 4096]⟩ : Shape).Idx → EReal) : (⟨2, ![8192, 4096]⟩ : Shape).Idx → EReal :=
  fun i => binX2 X (i 0) (i 1)

/-- A product of a token matrix `A` and a weight matrix `B` plus a bias row `β : [1, 16384]`, as an array `[8192, 16384]`. -/
def arrY2 (A : (⟨2, ![8192, 4096]⟩ : Shape).Idx → EReal) (B : (⟨2, ![4096, 16384]⟩ : Shape).Idx → EReal)
    (β : (⟨2, ![1, 16384]⟩ : Shape).Idx → EReal) : (⟨2, ![8192, 16384]⟩ : Shape).Idx → EReal :=
  fun i => (∑ d : Fin 4096, A (ix2 (i 0) d) * B (ix2 d (i 1))) + β (ix2 (0 : Fin 1) (i 1))

/-- The layer's output at batch `b`, position `s`, feature `f`. -/
def out3 (X : (⟨3, ![4, 2048, 4096]⟩ : Shape).Idx → EReal) (K : (⟨2, ![4096, 16384]⟩ : Shape).Idx → EReal)
    (β : (⟨1, ![16384]⟩ : Shape).Idx → EReal) (b : Fin 4) (s : Fin 2048) (f : Fin 16384) : EReal :=
  (∑ d : Fin 4096, binX3 X b s d * binW K d f) + β (ix1 f)

/-- The layer's output as an array `[4, 2048, 16384]`. -/
def arrOut (X : (⟨3, ![4, 2048, 4096]⟩ : Shape).Idx → EReal) (K : (⟨2, ![4096, 16384]⟩ : Shape).Idx → EReal)
    (β : (⟨1, ![16384]⟩ : Shape).Idx → EReal) : (⟨3, ![4, 2048, 16384]⟩ : Shape).Idx → EReal :=
  fun i => out3 X K β (i 0) (i 1) (i 2)

theorem arrW_ix (K : (⟨2, ![4096, 16384]⟩ : Shape).Idx → EReal) (d : Fin 4096) (f : Fin 16384) :
    arrW K (ix2 d f) = binW K d f := rfl

theorem arrX2_ix (X : (⟨2, ![8192, 4096]⟩ : Shape).Idx → EReal) (r : Fin 8192) (d : Fin 4096) :
    arrX2 X (ix2 r d) = binX2 X r d := rfl

theorem arrY2_ix (A : (⟨2, ![8192, 4096]⟩ : Shape).Idx → EReal) (B : (⟨2, ![4096, 16384]⟩ : Shape).Idx → EReal)
    (β : (⟨2, ![1, 16384]⟩ : Shape).Idx → EReal) (r : Fin 8192) (f : Fin 16384) :
    arrY2 A B β (ix2 r f) = (∑ d : Fin 4096, A (ix2 r d) * B (ix2 d f)) + β (ix2 (0 : Fin 1) f) := rfl

theorem arrOut_ix (X : (⟨3, ![4, 2048, 4096]⟩ : Shape).Idx → EReal) (K : (⟨2, ![4096, 16384]⟩ : Shape).Idx → EReal)
    (β : (⟨1, ![16384]⟩ : Shape).Idx → EReal) (b : Fin 4) (s : Fin 2048) (f : Fin 16384) :
    arrOut X K β (ix3 b s f) = out3 X K β b s f := rfl

end Cert.Spec

end
-- ==== Proof.Bridge.lean ====
/-
  Tokens as rows. The kernel flattens the activations `[4, 2048, 4096]` to a matrix `[8192, 4096]` whose row
  `2048 · b + s` is token `(b, s)`, works on matrices, and unflattens the product `[8192, 16384]` at the end; the bias
  `[16384]` it carries as a row `[1, 16384]`. Row-major order makes each of these casts a re-indexing, so the matrix
  formulation, cast back, is the layer's output: a token's group of activations, its largest magnitude, and its dot
  products are the same numbers under either indexing.
-/
import proofs.«131410_j6047313952873_1_alg».proof.Proof.Spec
import Idealize.ShloMosaic.Lib.Pipeline.Value
import Idealize.ShloMosaic.Lib.ValueIdx

noncomputable section

open scoped BigOperators

namespace Cert.Bridge

open Idealize.ShloMosaic Idealize.ShloMosaic.ValueIdx Cert.Spec

/-- The row of token `(b, s)` in the flattened matrix. -/
def tok (b : Fin 4) (s : Fin 2048) : Fin 8192 :=
  ⟨b.val * 2048 + s.val, by have := b.isLt; have := s.isLt; omega⟩

/-- The flattened activations at row `tok b s` are the activations of token `(b, s)`. -/
theorem cast_X {α : Type} (X : (⟨3, ![4, 2048, 4096]⟩ : Shape).Idx → α)
    (h : (⟨3, ![4, 2048, 4096]⟩ : Shape).ShapeCasts ⟨2, ![8192, 4096]⟩) (b : Fin 4) (s : Fin 2048) (d : Fin 4096) :
    shapeCast ⟨2, ![8192, 4096]⟩ X h (ix2 (tok b s) d) = X (ix3 b s d) :=
  shapeCast_apply X h _ _ (by
    rw [Shape.rowMajor_val_three, Shape.rowMajor_val_two]
    rfl)

/-- The bias as a row reads the bias. -/
theorem cast_β {α : Type} (β : (⟨1, ![16384]⟩ : Shape).Idx → α)
    (h : (⟨1, ![16384]⟩ : Shape).ShapeCasts ⟨2, ![1, 16384]⟩) (f : Fin 16384) :
    shapeCast ⟨2, ![1, 16384]⟩ β h (ix2 (0 : Fin 1) f) = β (ix1 f) :=
  shapeCast_apply β h _ _ (by
    rw [Shape.rowMajor_val_one, Shape.rowMajor_val_two]
    show f.val = 0 * 16384 + f.val
    omega)

/-- The unflattened product at `(b, s, f)` is the product matrix at row `tok b s`. -/
theorem cast_Y {α : Type} (Y : (⟨2, ![8192, 16384]⟩ : Shape).Idx → α)
    (h : (⟨2, ![8192, 16384]⟩ : Shape).ShapeCasts ⟨3, ![4, 2048, 16384]⟩) (b : Fin 4) (s : Fin 2048) (f : Fin 16384) :
    shapeCast ⟨3, ![4, 2048, 16384]⟩ Y h (ix3 b s f) = Y (ix2 (tok b s) f) :=
  shapeCast_apply Y h _ _ (by
    rw [Shape.rowMajor_val_three, Shape.rowMajor_val_two]
    rfl)

/-- The matrix formulation — flatten, binarize rows and columns, multiply, add the bias row — cast back to
    `[4, 2048, 16384]` is the layer's output. -/
theorem out_eq (X : (⟨3, ![4, 2048, 4096]⟩ : Shape).Idx → EReal) (K : (⟨2, ![4096, 16384]⟩ : Shape).Idx → EReal)
    (β : (⟨1, ![16384]⟩ : Shape).Idx → EReal)
    (h1 : (⟨3, ![4, 2048, 4096]⟩ : Shape).ShapeCasts ⟨2, ![8192, 4096]⟩)
    (h2 : (⟨1, ![16384]⟩ : Shape).ShapeCasts ⟨2, ![1, 16384]⟩)
    (h3 : (⟨2, ![8192, 16384]⟩ : Shape).ShapeCasts ⟨3, ![4, 2048, 16384]⟩) :
    shapeCast ⟨3, ![4, 2048, 16384]⟩
        (arrY2 (arrX2 (shapeCast ⟨2, ![8192, 4096]⟩ X h1)) (arrW K) (shapeCast ⟨2, ![1, 16384]⟩ β h2)) h3
      = arrOut X K β := by
  funext i
  obtain ⟨b, s, f, rfl⟩ : ∃ (b : Fin 4) (s : Fin 2048) (f : Fin 16384), i = ix3 b s f := ⟨i 0, i 1, i 2, eq_ix3 i⟩
  rw [cast_Y _ h3 b s f, arrY2_ix, arrOut_ix, cast_β β h2 f]
  unfold out3
  refine congrArg (· + β (ix1 f)) (Finset.sum_congr rfl fun d _ => ?_)
  rw [arrX2_ix, arrW_ix]
  refine congrArg (· * binW K d f) ?_
  simp only [binX2, binX3, cast_X X h1 b s]

end Cert.Bridge

end
-- ==== Proof.LibMaxAxes.lean ====
/-
  Float maximum reductions read at the extended reals as `Finset.fold max` over the reduced axis, at a result index given
  by its coordinates: a kernel's `vector.multi_reduction <maximumf>` down the ROWS of a matrix (axis 0), and the host's
  `reduce` with a maximum body down the rows of a matrix (axis 0) and along the LAST axis of a rank-3 array (axis 2).
-/
import Idealize.ShloMosaic.Lib.ValueIdx
import Idealize.ShloMosaic.PureOps.Ideal.Laws

namespace Idealize.ShloMosaic.ValueIdx

open Idealize.ShloMosaic

/-- A kernel's maximum down the ROWS of an `[a, b]` matrix: in column `j`, the maximum of that column from the
    accumulator. -/
theorem multiReduction_max_rows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) fun r => src (ix2 r j) :=
  (Ideal.multiReduction_maximumf_single src acc h hφ hacc (ix1 j)).trans
    (Finset.fold_congr fun r _ => congrArg src (funext fun ax => Fin.ext (by
      match ax with
      | ⟨0, _⟩ => rfl
      | ⟨1, _⟩ => rfl)))

/-- The host's `reduce` with a maximum body down the ROWS of an `[a, b]` matrix: in column `j`, the maximum of that
    column from the initial value. -/
theorem hostReduce_max_rows_apply {a b : ℕ} {u : Shape} (x : FVec Ideal ⟨2, ![a, b]⟩ .f32) (init : u.Idx → Ideal .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduce FloatOps.maximumf x init h' hu (ix1 j)
      = (Finset.univ : Finset (Fin a)).fold max (init (Shape.Idx.first hu)) fun r => x (ix2 r j) :=
  (Host.reduce_eq_fold_single FloatOps.maximumf x init h' h hu (ix1 j)).trans
    (Finset.fold_congr fun r _ => congrArg x (funext fun ax => Fin.ext (by
      match ax with
      | ⟨0, _⟩ => rfl
      | ⟨1, _⟩ => rfl)))

/-- The host's `reduce` with a maximum body along the LAST axis of an `[a, b, n]` array: at `(p, q)`, the maximum of
    that fibre from the initial value. -/
theorem hostReduce_max_last3_apply {a b n : ℕ} {u : Shape} (x : FVec Ideal ⟨3, ![a, b, n]⟩ .f32) (init : u.Idx → Ideal .f32)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduce FloatOps.maximumf x init h' hu (ix2 p q)
      = (Finset.univ : Finset (Fin n)).fold max (init (Shape.Idx.first hu)) fun k => x (ix3 p q k) :=
  (Host.reduce_eq_fold_single FloatOps.maximumf x init h' h hu (ix2 p q)).trans
    (Finset.fold_congr fun k _ => congrArg x (funext fun ax => Fin.ext (by
      match ax with
      | ⟨0, _⟩ => rfl
      | ⟨1, _⟩ => rfl
      | ⟨2, _⟩ => rfl)))

end Idealize.ShloMosaic.ValueIdx
-- ==== Proof.R0Value.lean ====
/-
  The weight-binarizing region: the array it leaves is the weight matrix binarized per column.
-/
import proofs.«131410_j6047313952873_1_alg».proof.Proof.Gen.KernelIdeal.Frame
import proofs.«131410_j6047313952873_1_alg».proof.Proof.Spec
import proofs.«131410_j6047313952873_1_alg».proof.Proof.LibMaxAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The body's arithmetic at an entry of its block -/

/-- An entry `x` binarized with a given scale `s`: `(⌊clip (x · s)⌋ + 1/2) / s`. -/
def binS (x s : EReal) : EReal :=
  Ideal.div
    (Ideal.liftRound Int.floor
        (min (Ideal.ofBits .f32 0x3F7FBE77#32) (max (Ideal.ofBits .f32 0xBF7FBE77#32) (x * s)))
      + Ideal.ofBits .f32 0x3F000000#32)
    s

theorem bin_eq (x mx : EReal) : bin x mx = binS x (scale mx) := rfl

/-- The row of scales the body computes from its block `[4096, 256]`: per column, one over the column's largest
    magnitude plus ε. -/
def scaleRow (x0 : Vec Ideal S4096x256 .f32) : FVec Ideal S1x256 .f32 :=
  divf (broadcast S1x256 (Scalar.ofBits .f32 0x3F800000#32))
    (addf (shapeCast S1x256 (multiReduction .maximumf [0] S256 (absf x0) 0xFF800000#32 reduces_S4096x256_S256 (.inl rfl) rfl)
        shapeCasts_S256_S1x256)
      (broadcast S1x256 (Scalar.ofBits .f32 0x34000000#32)))

/-- A scalar literal is the number its pattern denotes. -/
theorem scalar_ofBits (b : BitVec 32) : Scalar.ofBits (F := Ideal) .f32 b = Ideal.ofBits .f32 b := rfl

/-- One over a row of numbers plus a constant, read at an index. -/
theorem recip_at (M : FVec Ideal S1x256 .f32) (c1 c2 : Ideal .f32) (i : S1x256.Idx) :
    divf (broadcast S1x256 c1) (addf M (broadcast S1x256 c2)) i = Ideal.div c1 (M i + c2) := by
  rfl

/-- The row of scales at an index: the scale of the maximum found there. -/
theorem scaleRow_at (x0 : Vec Ideal S4096x256 .f32) (i : S1x256.Idx) :
    scaleRow x0 i = scale (shapeCast S1x256
      (multiReduction (F := Ideal) .maximumf [0] S256 (absf x0) 0xFF800000#32 reduces_S4096x256_S256 (.inl rfl) rfl)
      shapeCasts_S256_S1x256 i) := by
  have h : scaleRow x0 i = Ideal.div (Scalar.ofBits (F := Ideal) .f32 0x3F800000#32)
      (shapeCast S1x256
          (multiReduction (F := Ideal) .maximumf [0] S256 (absf x0) 0xFF800000#32 reduces_S4096x256_S256 (.inl rfl) rfl)
          shapeCasts_S256_S1x256 i
        + Scalar.ofBits (F := Ideal) .f32 0x34000000#32) := by
    unfold scaleRow
    exact recip_at _ _ _ i
  rw [h, scalar_ofBits, scalar_ofBits]
  unfold scale
  rfl

/-- In column `q` the row of scales holds the scale of that column of the block. -/
theorem scaleRow_apply (x0 : Vec Ideal S4096x256 .f32) (q : Fin 256) :
    scaleRow x0 (ix2 (0 : Fin 1) q) = scale (peak fun d : Fin 4096 => x0 (ix2 d q)) :=
  (scaleRow_at x0 (ix2 (0 : Fin 1) q)).trans (congrArg scale
    ((shapeCast_a_1a_apply _ shapeCasts_S256_S1x256 0 q).trans
      (multiReduction_max_rows_apply (absf x0) 0xFF800000#32 reduces_S4096x256_S256 (.inl rfl) rfl q)))

/-- The body's stored block as one expression in the block `x0` and the row of scales broadcast down it: the entries
    scaled, clipped, floored, shifted by one half and scaled back. -/
theorem pay_vec (x0 : Vec Ideal S4096x256 .f32) :
    k0_pay1 x0 = truncf .bf16 (divf (addf (floor (minimumf (broadcast S4096x256 (Scalar.ofBits .f32 0x3F7FBE77#32))
        (maximumf (broadcast S4096x256 (Scalar.ofBits .f32 0xBF7FBE77#32))
          (mulf x0 (broadcastTo S4096x256 (scaleRow x0) broadcasts_S1x256_S4096x256)))))
        (broadcast S4096x256 (Scalar.ofBits .f32 0x3F000000#32)))
      (broadcastTo S4096x256 (scaleRow x0) broadcasts_S1x256_S4096x256)) bitsLt_bf16_f32 := by
  unfold k0_pay1 scaleRow
  rfl

/-- That expression is pointwise: at an index it binarizes the block's entry with the scale found there. -/
theorem pointwise_apply (x0 B : FVec Ideal S4096x256 .f32) (i : S4096x256.Idx) :
    truncf .bf16 (divf (addf (floor (minimumf (broadcast S4096x256 (Scalar.ofBits .f32 0x3F7FBE77#32))
        (maximumf (broadcast S4096x256 (Scalar.ofBits .f32 0xBF7FBE77#32))
          (mulf x0 B))))
        (broadcast S4096x256 (Scalar.ofBits .f32 0x3F000000#32)))
      B) bitsLt_bf16_f32 i = binS (x0 i) (B i) := rfl

/-- The body's stored value at `(p, q)` of its block is the entry binarized within its column of the block. -/
theorem pay_apply (x0 : Vec Ideal S4096x256 .f32) (p : Fin 4096) (q : Fin 256) :
    k0_pay1 x0 (ix2 p q) = bin (x0 (ix2 p q)) (peak fun d : Fin 4096 => x0 (ix2 d q)) :=
  (congrFun (pay_vec x0) (ix2 p q)).trans
    ((pointwise_apply x0 (broadcastTo S4096x256 (scaleRow x0) broadcasts_S1x256_S4096x256) (ix2 p q)).trans
      (congrArg (binS (x0 (ix2 p q)))
        ((broadcastTo_1b_ab_apply (scaleRow x0) broadcasts_S1x256_S4096x256 p q).trans (scaleRow_apply x0 q))))

/-! ## The blocks: point `t` of the 64 works on columns `256 t … 256 t + 255`, all 4096 rows -/

theorem hz : (![0, 0] : Fin 2 → Nat) = fun _ => 0 := funext fun a => by fin_cases a <;> rfl

/-- The printed index maps over the grid: at point `t` the input and the output window both sit at block `(0, t)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Column `q` of point `t`'s block is column `256 t + q` of the array. -/
def col (t : Fin cfg0.N) (q : Fin 256) : Fin 16384 :=
  ⟨t.val * 256 + q.val, by have ht : t.val < 64 := t.isLt; have := q.isLt; omega⟩

/-- Where entry `(p, q)` of point `t`'s input block lies in the weight array. -/
theorem emb_in (t : Fin cfg0.N) (p : Fin 4096) (q : Fin 256) :
    ((cfg0.win 0).blk t).view.emb (ix2 p q) = ix2 p (col t q) := by
  obtain ⟨e0, e1, -, -⟩ := idx_facts t
  funext a; apply Fin.ext
  match a with
  | ⟨0, _⟩ => show win0_0.index t (0 : Fin 2) * 4096 + 1 * p.val = p.val; omega
  | ⟨1, _⟩ => show win0_0.index t (1 : Fin 2) * 256 + 1 * q.val = t.val * 256 + q.val; omega

/-- Where entry `(p, q)` of point `t`'s output block lies in the output array: the same place. -/
theorem emb_out (t : Fin cfg0.N) (p : Fin 4096) (q : Fin 256) :
    ((cfg0.win 1).blk t).view.emb (ix2 p q) = ix2 p (col t q) := by
  obtain ⟨-, -, e2, e3⟩ := idx_facts t
  funext a; apply Fin.ext
  match a with
  | ⟨0, _⟩ => show win0_1.index t (0 : Fin 2) * 4096 + 1 * p.val = p.val; omega
  | ⟨1, _⟩ => show win0_1.index t (1 : Fin 2) * 256 + 1 * q.val = t.val * 256 + q.val; omega

/-- The input block at point `t` holds the weight array's columns `256 t …`, every row. -/
theorem blk_read (c : Dev nD) (t : Fin cfg0.N) (p : Fin 4096) (q : Fin 256) :
    iblk0 V c 0 t (ix2 p q) = V c main_arg1 (ix2 p (col t q)) := by
  show V c main_arg1 (((cfg0.win 0).blk t).view.emb (ix2 p q)) = _
  rw [emb_in t p q]

/-- WHAT POINT `t` WRITES BACK is block `t` of the weight matrix binarized per column: a block holds whole columns, so a
    column's largest magnitude within the block is its largest magnitude in the array. -/
theorem flushed_eq (c : Dev nD) (t : Fin cfg0.N) :
    (dat0 V c).flushed 1 t = ((cfg0.win 1).blk t).view.read (Elt Ideal) (arrW (V c main_arg1)) := by
  show (cfg0.win 1).cut (grid0.coords t) ((dat0 V c).after 1 t) = _
  rw [after0_1]
  unfold out0_1
  rw [View.canon_unit_zero hz]
  simp only [View.ld_unit_zero (S := S4096x256) hz]
  funext j
  obtain ⟨p, q, rfl⟩ : ∃ (p : Fin 4096) (q : Fin 256), j = ix2 p q := ⟨j 0, j 1, eq_ix2 j⟩
  refine (pay_apply (iblk0 V c 0 t) p q).trans ?_
  show _ = arrW (V c main_arg1) (((cfg0.win 1).blk t).view.emb (ix2 p q))
  rw [emb_out t p q, arrW_ix]
  unfold binW
  simp only [blk_read V c t]

/-- An index of the array is in point `t`'s block iff each coordinate is in the block's range on its axis. -/
theorem mem_blk (t : Fin cfg0.N) (i : S4096x16384.Idx) :
    i ∈ ((cfg0.win 1).blk t).view.set ↔ ∀ a : Fin 2, win0_1.index t a * S4096x256.size a ≤ (i a).val ∧ (i a).val < win0_1.index t a * S4096x256.size a + S4096x256.size a := by
  show i ∈ ((View.whole main_v2).slice (win0_1.rect t)).set ↔ _
  rw [View.set_slice_whole, Rect.mem_set_unit]
  exact Iff.rfl

/-- Every entry of the output array is written by the point that owns its column: column `f` by point `f / 256`. -/
theorem cover (i : S4096x16384.Idx) :
    ∃ t : Fin cfg0.N, (cfg0.win 1).flush t = true ∧ i ∈ ((cfg0.win 1).blk t).view.set := by
  have hi0 : (i 0).val < 4096 := (i 0).isLt
  have hi1 : (i 1).val < 16384 := (i 1).isLt
  have hlt : (i 1).val / 256 < 64 := by omega
  obtain ⟨t, ht⟩ : ∃ t : Fin cfg0.N, t.val = (i 1).val / 256 := ⟨⟨(i 1).val / 256, hlt⟩, rfl⟩
  refine ⟨t, flush0_1 t, ?_⟩
  rw [mem_blk]
  obtain ⟨-, -, e2, e3⟩ := idx_facts t
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 256 ≤ (i 1).val ∧ (i 1).val < win0_1.index t (1 : Fin 2) * 256 + 256; omega

/-- After the region every block of its output array has been written: the array is the entry weight matrix binarized
    per column. -/
theorem final (c : Dev nD) : (dat0 V c).arrAt 1 cfg0.N = arrW (V c main_arg1) :=
  (dat0 V c).arrAt_eq_of_cover 1 (arrW (V c main_arg1)) (fun t _ => flushed_eq V c t) cover

end Cert.KernelIdeal.R0

end
-- ==== Proof.LibMaxReduce.lean ====
/-
  A float maximum-reduction over the columns of a matrix, read at the extended reals at a row given by its coordinate:
  the fold of `max` from the accumulator's value over the row's entries. For a kernel's lane reduction
  (`vector.multi_reduction <maximumf>` over axis 1) and for the host's `reduce` with a maximum body over axis 1.
-/
import Idealize.ShloMosaic.Lib.ValueIdx
import Idealize.ShloMosaic.PureOps.Ideal.Laws

namespace Idealize.ShloMosaic.ValueIdx

open Idealize.ShloMosaic

/-- A kernel's maximum over the COLUMNS of an `[a, b]` matrix: in row `r`, the maximum of that row from the accumulator. -/
theorem multiReduction_max_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) fun c => src (ix2 r c) :=
  (Ideal.multiReduction_maximumf_single src acc h hφ hacc (ix1 r)).trans
    (Finset.fold_congr fun c _ => congrArg src (funext fun ax => Fin.ext (by
      match ax with
      | ⟨0, _⟩ => rfl
      | ⟨1, _⟩ => rfl)))

/-- The host's `reduce` with a maximum body over the COLUMNS of an `[a, b]` matrix: in row `i`, the maximum of that row
    from the initial value. -/
theorem hostReduce_max_cols_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf x init h' hu (ix1 i)
      = (Finset.univ : Finset (Fin b)).fold max (init (Shape.Idx.first hu)) fun k => x (ix2 i k) :=
  (Host.reduce_eq_fold_single FloatOps.maximumf x init h' h hu (ix1 i)).trans
    (Finset.fold_congr fun k _ => congrArg x (funext fun ax => Fin.ext (by
      match ax with
      | ⟨0, _⟩ => rfl
      | ⟨1, _⟩ => rfl)))

end Idealize.ShloMosaic.ValueIdx
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.R1Value.lean ====
/-
  The activation-binarizing region: the array it leaves is the token matrix binarized per row.
-/
import proofs.«131410_j6047313952873_1_alg».proof.Proof.Gen.KernelIdeal.Frame
import proofs.«131410_j6047313952873_1_alg».proof.Proof.Spec
import proofs.«131410_j6047313952873_1_alg».proof.Proof.LibMaxReduce
import proofs.«131410_j6047313952873_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The body's arithmetic at an entry of its block -/

/-- An entry `x` binarized with a given scale `s`: `(⌊clip (x · s)⌋ + 1/2) / s`. -/
def binS (x s : EReal) : EReal :=
  Ideal.div
    (Ideal.liftRound Int.floor
        (min (Ideal.ofBits .f32 0x3F7FBE77#32) (max (Ideal.ofBits .f32 0xBF7FBE77#32) (x * s)))
      + Ideal.ofBits .f32 0x3F000000#32)
    s

theorem bin_eq (x mx : EReal) : bin x mx = binS x (scale mx) := rfl

/-- The column of scales the body computes from a block `[256, 4096]`: per row, one over the row's largest magnitude
    plus ε. -/
def scaleCol (x1 : FVec Ideal S256x4096 .f32) : FVec Ideal S256x1 .f32 :=
  divf (broadcast S256x1 (Scalar.ofBits .f32 0x3F800000#32))
    (addf (shapeCast S256x1 (multiReduction .maximumf [1] S256 (absf x1) 0xFF800000#32 reduces_S256x4096_S256 (.inl rfl) rfl)
        shapeCasts_S256_S256x1)
      (broadcast S256x1 (Scalar.ofBits .f32 0x34000000#32)))

/-- The block the body stores, from a block `x1`: every entry scaled by its row's scale, clipped, floored, shifted by
    one half and scaled back. -/
def binBlock (x1 : FVec Ideal S256x4096 .f32) : FVec Ideal S256x4096 .bf16 :=
  truncf .bf16 (divf (addf (floor (minimumf (broadcast S256x4096 (Scalar.ofBits .f32 0x3F7FBE77#32))
      (maximumf (broadcast S256x4096 (Scalar.ofBits .f32 0xBF7FBE77#32))
        (mulf x1 (broadcastTo S256x4096 (scaleCol x1) broadcasts_S256x1_S256x4096)))))
      (broadcast S256x4096 (Scalar.ofBits .f32 0x3F000000#32)))
    (broadcastTo S256x4096 (scaleCol x1) broadcasts_S256x1_S256x4096)) bitsLt_bf16_f32

/-- A scalar literal is the number its pattern denotes. -/
theorem scalar_ofBits (b : BitVec 32) : Scalar.ofBits (F := Ideal) .f32 b = Ideal.ofBits .f32 b := rfl

/-- One over a column of numbers plus a constant, read at an index. -/
theorem recip_at (M : FVec Ideal S256x1 .f32) (c1 c2 : Ideal .f32) (i : S256x1.Idx) :
    divf (broadcast S256x1 c1) (addf M (broadcast S256x1 c2)) i = Ideal.div c1 (M i + c2) := by
  rfl

/-- The column of scales at an index: the scale of the maximum found there. -/
theorem scaleCol_at (x1 : FVec Ideal S256x4096 .f32) (i : S256x1.Idx) :
    scaleCol x1 i = scale (shapeCast S256x1
      (multiReduction (F := Ideal) .maximumf [1] S256 (absf x1) 0xFF800000#32 reduces_S256x4096_S256 (.inl rfl) rfl)
      shapeCasts_S256_S256x1 i) := by
  have h : scaleCol x1 i = Ideal.div (Scalar.ofBits (F := Ideal) .f32 0x3F800000#32)
      (shapeCast S256x1
          (multiReduction (F := Ideal) .maximumf [1] S256 (absf x1) 0xFF800000#32 reduces_S256x4096_S256 (.inl rfl) rfl)
          shapeCasts_S256_S256x1 i
        + Scalar.ofBits (F := Ideal) .f32 0x34000000#32) := by
    unfold scaleCol
    exact recip_at _ _ _ i
  rw [h, scalar_ofBits, scalar_ofBits]
  unfold scale
  rfl

/-- In row `p` the column of scales holds the scale of that row of the block. -/
theorem scaleCol_apply (x1 : FVec Ideal S256x4096 .f32) (p : Fin 256) :
    scaleCol x1 (ix2 p (0 : Fin 1)) = scale (peak fun d : Fin 4096 => x1 (ix2 p d)) :=
  (scaleCol_at x1 (ix2 p (0 : Fin 1))).trans (congrArg scale
    ((shapeCast_a_a1_apply _ shapeCasts_S256_S256x1 p 0).trans
      (multiReduction_max_cols_apply (absf x1) 0xFF800000#32 reduces_S256x4096_S256 (.inl rfl) rfl p)))

/-- The body's stored block is that expression of the loaded block viewed at its own shape … -/
theorem pay_cast (x0 : Vec Ideal S256x4096 .f32) :
    k1_pay1 x0 = binBlock (shapeCast S256x4096 x0 shapeCasts_S256x4096_S256x4096) := by
  unfold k1_pay1 binBlock scaleCol
  rfl

/-- … which is the loaded block itself. -/
theorem pay_vec (x0 : Vec Ideal S256x4096 .f32) : k1_pay1 x0 = binBlock x0 :=
  (pay_cast x0).trans (congrArg binBlock (shapeCast_self x0 shapeCasts_S256x4096_S256x4096))

/-- The expression is pointwise in the block and the broadcast scales: at an index it binarizes the block's entry with
    the scale found there. -/
theorem pointwise_apply (x1 B : FVec Ideal S256x4096 .f32) (i : S256x4096.Idx) :
    truncf .bf16 (divf (addf (floor (minimumf (broadcast S256x4096 (Scalar.ofBits .f32 0x3F7FBE77#32))
        (maximumf (broadcast S256x4096 (Scalar.ofBits .f32 0xBF7FBE77#32))
          (mulf x1 B))))
        (broadcast S256x4096 (Scalar.ofBits .f32 0x3F000000#32)))
      B) bitsLt_bf16_f32 i = binS (x1 i) (B i) := rfl

/-- The stored block at an index: the entry binarized with its row's scale, read where the column of scales was
    repeated to. -/
theorem binBlock_at (x1 : FVec Ideal S256x4096 .f32) (i : S256x4096.Idx) :
    binBlock x1 i = binS (x1 i) (broadcastTo S256x4096 (scaleCol x1) broadcasts_S256x1_S256x4096 i) := by
  unfold binBlock
  exact pointwise_apply x1 _ i

/-- The body's stored value at `(p, q)` of its block is the entry binarized within its row of the block. -/
theorem pay_apply (x0 : Vec Ideal S256x4096 .f32) (p : Fin 256) (q : Fin 4096) :
    k1_pay1 x0 (ix2 p q) = bin (x0 (ix2 p q)) (peak fun d : Fin 4096 => x0 (ix2 p d)) :=
  (congrFun (pay_vec x0) (ix2 p q)).trans
    ((binBlock_at x0 (ix2 p q)).trans
      (congrArg (binS (x0 (ix2 p q)))
        ((broadcastTo_a1_ab_apply (scaleCol x0) broadcasts_S256x1_S256x4096 p q).trans (scaleCol_apply x0 p))))

/-! ## The blocks: point `t` of the 32 works on rows `256 t … 256 t + 255`, all 4096 columns -/

theorem hz : (![0, 0] : Fin 2 → Nat) = fun _ => 0 := funext fun a => by fin_cases a <;> rfl

/-- The two windows' index maps over the grid: at point `t` the input and the output window both sit at block `(t, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `p` of point `t`'s block is row `256 t + p` of the array. -/
def row (t : Fin cfg1.N) (p : Fin 256) : Fin 8192 :=
  ⟨t.val * 256 + p.val, by have ht : t.val < 32 := t.isLt; have := p.isLt; omega⟩

/-- Where entry `(p, q)` of point `t`'s input block lies in the token matrix. -/
theorem emb_in (t : Fin cfg1.N) (p : Fin 256) (q : Fin 4096) :
    ((cfg1.win 0).blk t).view.emb (ix2 p q) = ix2 (row t p) q := by
  obtain ⟨e0, e1, -, -⟩ := idx_facts t
  funext a; apply Fin.ext
  match a with
  | ⟨0, _⟩ => show win1_0.index t (0 : Fin 2) * 256 + 1 * p.val = t.val * 256 + p.val; omega
  | ⟨1, _⟩ => show win1_0.index t (1 : Fin 2) * 4096 + 1 * q.val = q.val; omega

/-- Where entry `(p, q)` of point `t`'s output block lies in the output array: the same place. -/
theorem emb_out (t : Fin cfg1.N) (p : Fin 256) (q : Fin 4096) :
    ((cfg1.win 1).blk t).view.emb (ix2 p q) = ix2 (row t p) q := by
  obtain ⟨-, -, e2, e3⟩ := idx_facts t
  funext a; apply Fin.ext
  match a with
  | ⟨0, _⟩ => show win1_1.index t (0 : Fin 2) * 256 + 1 * p.val = t.val * 256 + p.val; omega
  | ⟨1, _⟩ => show win1_1.index t (1 : Fin 2) * 4096 + 1 * q.val = q.val; omega

/-- The input block at point `t` holds the token matrix's rows `256 t …`, every column. -/
theorem blk_read (c : Dev nD) (t : Fin cfg1.N) (p : Fin 256) (q : Fin 4096) :
    iblk1 V c 0 t (ix2 p q) = V c main_v0 (ix2 (row t p) q) := by
  show V c main_v0 (((cfg1.win 0).blk t).view.emb (ix2 p q)) = _
  rw [emb_in t p q]

/-- WHAT POINT `t` WRITES BACK is block `t` of the token matrix binarized per row: a block holds whole rows, so a
    row's largest magnitude within the block is its largest magnitude in the array. -/
theorem flushed_eq (c : Dev nD) (t : Fin cfg1.N) :
    (dat1 V c).flushed 1 t = ((cfg1.win 1).blk t).view.read (Elt Ideal) (arrX2 (V c main_v0)) := by
  show (cfg1.win 1).cut (grid1.coords t) ((dat1 V c).after 1 t) = _
  rw [after1_1]
  unfold out1_1
  rw [View.canon_unit_zero hz]
  simp only [View.ld_unit_zero (S := S256x4096) hz]
  funext j
  obtain ⟨p, q, rfl⟩ : ∃ (p : Fin 256) (q : Fin 4096), j = ix2 p q := ⟨j 0, j 1, eq_ix2 j⟩
  refine (pay_apply (iblk1 V c 0 t) p q).trans ?_
  show _ = arrX2 (V c main_v0) (((cfg1.win 1).blk t).view.emb (ix2 p q))
  rw [emb_out t p q, arrX2_ix]
  unfold binX2
  simp only [blk_read V c t]

/-- An index of the array is in point `t`'s block iff each coordinate is in the block's range on its axis. -/
theorem mem_blk (t : Fin cfg1.N) (i : S8192x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v3).slice (win1_1.rect t)).set ↔ _
  rw [View.set_slice_whole, Rect.mem_set_unit]
  exact Iff.rfl

/-- Every entry of the output array is written by the point that owns its row: row `r` by point `r / 256`. -/
theorem cover (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  have hlt : (i 0).val / 256 < 32 := by omega
  obtain ⟨t, ht⟩ : ∃ t : Fin cfg1.N, t.val = (i 0).val / 256 := ⟨⟨(i 0).val / 256, hlt⟩, rfl⟩
  refine ⟨t, flush1_1 t, ?_⟩
  rw [mem_blk]
  obtain ⟨-, -, e2, e3⟩ := idx_facts t
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 4096 ≤ (i 1).val ∧ (i 1).val < win1_1.index t (1 : Fin 2) * 4096 + 4096; omega

/-- After the region every block of its output array has been written: the array is the entry token matrix binarized
    per row. -/
theorem final (c : Dev nD) : (dat1 V c).arrAt 1 cfg1.N = arrX2 (V c main_v0) := by
  exact (dat1 V c).arrAt_eq_of_cover 1 (arrX2 (V c main_v0)) (fun t _ => flushed_eq V c t) cover

end Cert.KernelIdeal.R1

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.R2Value.lean ====
/-
  The product region: the array it leaves is the product of its two operand arrays plus the bias row.
-/
import proofs.«131410_j6047313952873_1_alg».proof.Proof.Gen.KernelIdeal.Frame
import proofs.«131410_j6047313952873_1_alg».proof.Proof.Spec
import proofs.«131410_j6047313952873_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## One block's arithmetic

The region's grid is 16 × 16. At the point with coordinates `(I, J)` the body sees rows `512·I … 512·I + 511` of the
token matrix (all 4096 columns), columns `1024·J … 1024·J + 1023` of the weight matrix (all 4096 rows), the same
columns of the bias row, and writes the `512 × 1024` block `(I, J)` of the output. -/

/-- The body's result at entry `(p, q)` of the block: the dot product over the 4096 contraction coordinates of row
    `p` of the token block with column `q` of the weight block (a matrix product into a zero accumulator), plus entry
    `q` of the bias block, whose single row is repeated over the 512 rows. -/
theorem pay_apply (x0 : Vec Ideal S512x4096 .bf16) (x1 : Vec Ideal S4096x1024 .bf16) (x2 : Vec Ideal S1x1024 .f32)
    (p : Fin 512) (q : Fin 1024) :
    k2_pay1 x0 x1 x2 (ix2 p q) = (∑ d : Fin 4096, x0 (ix2 p d) * x1 (ix2 d q)) + x2 (ix2 (0 : Fin 1) q) := by
  unfold k2_pay1
  -- the three same-shape casts are the identity
  rw [shapeCast_self, shapeCast_self, shapeCast_self]
  -- the sum of two blocks is entrywise
  show FloatOps.addf _ _ = _
  -- the repeated bias row at `(p, q)` is the row's entry `(0, q)`
  rw [broadcastTo_apply (k := ix2 (0 : Fin 1) q)]
  · -- the product into the zero accumulator at `(p, q)` is the sum over the contraction coordinate
    rw [Cert.LibDot.matmul_zero_apply _ rfl rfl rfl rfl rfl rfl]
    rfl
  · intro a
    match a with
    | ⟨0, _⟩ => rfl
    | ⟨1, _⟩ => rfl

/-! ## Where each block sits in its array -/

/-- The zero offset of a whole-block access, as a constant function. -/
theorem hz : (![0, 0] : Fin 2 → Nat) = fun _ => 0 := funext fun a => by fin_cases a <;> rfl

/-- The block indices of the four windows at a point, relative to the output's `(I, J)`: the token block is `(I, 0)`,
    the weight block `(0, J)`, the bias block `(0, J)`; and `I, J ≤ 15`. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) ≤ 15 ∧ win2_3.index t (1 : Fin 2) ≤ 15 :=
  (by decide +kernel : ∀ t : Fin grid2.N, _)

/-- The output's block index at the `t`-th point of the row-major 16 × 16 grid is `(t / 16, t % 16)`. -/
theorem idx_at : ∀ t : Fin cfg2.N, win2_3.index t = ![t.val / 16, t.val % 16] :=
  (by decide +kernel : ∀ t : Fin grid2.N, win2_3.index t = ![t.val / 16, t.val % 16])

/-- Entry `(p, d)` of the token block at a point is the token array at `(512·I + p, d)`. -/
theorem read0 (c : Dev nD) (t : Fin cfg2.N) (p : Fin 512) (d : Fin 4096) (r : Fin 8192)
    (hr : r.val = win2_3.index t (0 : Fin 2) * 512 + p.val) :
    iblk2 V c 0 t (ix2 p d) = V c main_v3 (ix2 r d) := by
  obtain ⟨e0, e1, -⟩ := idx_facts t
  show V c main_v3 (((cfg2.win 0).blk t).view.emb (ix2 p d)) = V c main_v3 (ix2 r d)
  refine congrArg (V c main_v3) ?_
  funext a; apply Fin.ext
  match a with
  | ⟨0, _⟩ => show win2_0.index t (0 : Fin 2) * 512 + 1 * p.val = r.val; omega
  | ⟨1, _⟩ => show win2_0.index t (1 : Fin 2) * 4096 + 1 * d.val = d.val; omega

/-- Entry `(d, q)` of the weight block at a point is the weight array at `(d, 1024·J + q)`. -/
theorem read1 (c : Dev nD) (t : Fin cfg2.N) (d : Fin 4096) (q : Fin 1024) (f : Fin 16384)
    (hf : f.val = win2_3.index t (1 : Fin 2) * 1024 + q.val) :
    iblk2 V c 1 t (ix2 d q) = V c main_v2 (ix2 d f) := by
  obtain ⟨-, -, e2, e3, -⟩ := idx_facts t
  show V c main_v2 (((cfg2.win 1).blk t).view.emb (ix2 d q)) = V c main_v2 (ix2 d f)
  refine congrArg (V c main_v2) ?_
  funext a; apply Fin.ext
  match a with
  | ⟨0, _⟩ => show win2_1.index t (0 : Fin 2) * 4096 + 1 * d.val = d.val; omega
  | ⟨1, _⟩ => show win2_1.index t (1 : Fin 2) * 1024 + 1 * q.val = f.val; omega

/-- Entry `(0, q)` of the bias block at a point is the bias row at `(0, 1024·J + q)`. -/
theorem read2 (c : Dev nD) (t : Fin cfg2.N) (q : Fin 1024) (f : Fin 16384)
    (hf : f.val = win2_3.index t (1 : Fin 2) * 1024 + q.val) :
    iblk2 V c 2 t (ix2 (0 : Fin 1) q) = V c main_v1 (ix2 (0 : Fin 1) f) := by
  obtain ⟨-, -, -, -, e4, e5, -⟩ := idx_facts t
  show V c main_v1 (((cfg2.win 2).blk t).view.emb (ix2 (0 : Fin 1) q)) = V c main_v1 (ix2 (0 : Fin 1) f)
  refine congrArg (V c main_v1) ?_
  funext a; apply Fin.ext
  match a with
  | ⟨0, _⟩ => show win2_2.index t (0 : Fin 2) * 1 + 1 * 0 = 0; omega
  | ⟨1, _⟩ => show win2_2.index t (1 : Fin 2) * 1024 + 1 * q.val = f.val; omega

/-- Entry `(p, q)` of the output block at a point sits at `(512·I + p, 1024·J + q)` of the output array. -/
theorem emb3 (t : Fin cfg2.N) (p : Fin 512) (q : Fin 1024) (r : Fin 8192) (f : Fin 16384)
    (hr : r.val = win2_3.index t (0 : Fin 2) * 512 + p.val)
    (hf : f.val = win2_3.index t (1 : Fin 2) * 1024 + q.val) :
    ((cfg2.win 3).blk t).view.emb (ix2 p q) = ix2 r f := by
  funext a; apply Fin.ext
  match a with
  | ⟨0, _⟩ => show win2_3.index t (0 : Fin 2) * 512 + 1 * p.val = r.val; omega
  | ⟨1, _⟩ => show win2_3.index t (1 : Fin 2) * 1024 + 1 * q.val = f.val; omega

/-! ## What a point writes back -/

/-- The block a point writes back is that block of the product-plus-bias array of the three arrays the region finds:
    at `(p, q)` of block `(I, J)`, with `r = 512·I + p` and `f = 1024·J + q`, both are
    `∑ d, A (r, d) · B (d, f) + β (0, f)`. -/
theorem flushed_eq (c : Dev nD) (t : Fin cfg2.N) :
    (dat2 V c).flushed 3 t
      = ((cfg2.win 3).blk t).view.read (Elt Ideal) (arrY2 (V c main_v3) (V c main_v2) (V c main_v1)) := by
  show (cfg2.win 3).cut (grid2.coords t) ((dat2 V c).after 3 t) = _
  rw [after2_3]
  unfold out2_3
  -- the one store fills the whole buffer, and each load reads a whole block
  rw [View.canon_unit_zero hz]
  simp only [View.ld_unit_zero (S := S512x4096) hz, View.ld_unit_zero (S := S4096x1024) hz,
    View.ld_unit_zero (S := S1x1024) hz]
  funext j
  obtain ⟨p, q, rfl⟩ : ∃ (p : Fin 512) (q : Fin 1024), j = ix2 p q := ⟨j 0, j 1, eq_ix2 j⟩
  show k2_pay1 (iblk2 V c 0 t) (iblk2 V c 1 t) (iblk2 V c 2 t) (ix2 p q) = _
  refine (pay_apply _ _ _ p q).trans ?_
  obtain ⟨-, -, -, -, -, -, b0, b1⟩ := idx_facts t
  have hp : p.val < 512 := p.isLt
  have hq : q.val < 1024 := q.isLt
  -- the array row and column under entry `(p, q)` of the block
  obtain ⟨r, hr⟩ : ∃ r : Fin 8192, r.val = win2_3.index t (0 : Fin 2) * 512 + p.val := ⟨⟨_, by omega⟩, rfl⟩
  obtain ⟨f, hf⟩ : ∃ f : Fin 16384, f.val = win2_3.index t (1 : Fin 2) * 1024 + q.val := ⟨⟨_, by omega⟩, rfl⟩
  show _ = arrY2 (V c main_v3) (V c main_v2) (V c main_v1) (((cfg2.win 3).blk t).view.emb (ix2 p q))
  rw [emb3 t p q r f hr hf, arrY2_ix]
  -- term by term: the same token entry, the same weight entry, the same bias entry
  refine congrArg₂ (· + ·) (Finset.sum_congr rfl fun d _ => ?_) (read2 V c t q f hf)
  rw [read0 V c t p d r hr, read1 V c t d q f hf]

/-! ## The blocks fill the array -/

/-- An index of the output array is in a point's block iff each coordinate is in the block's range on its axis. -/
theorem mem_blk (t : Fin cfg2.N) (i : S8192x16384.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v4).slice (win2_3.rect t)).set ↔ _
  rw [View.set_slice_whole, Rect.mem_set_unit]
  exact Iff.rfl

/-- Every index `(x, y)` of the output array is in the block of the point `(x / 512, y / 1024)`, which writes back. -/
theorem cover (i : S8192x16384.Idx) :
    ∃ t : Fin cfg2.N, (cfg2.win 3).flush t = true ∧ i ∈ ((cfg2.win 3).blk t).view.set := by
  have hi0 : (i 0).val < 8192 := (i 0).isLt
  have hi1 : (i 1).val < 16384 := (i 1).isLt
  obtain ⟨t, ht⟩ : ∃ t : Fin cfg2.N, t.val = (i 0).val / 512 * 16 + (i 1).val / 1024 :=
    ⟨⟨(i 0).val / 512 * 16 + (i 1).val / 1024, by show _ < 256; omega⟩, rfl⟩
  have q0 : win2_3.index t (0 : Fin 2) = t.val / 16 := congrFun (idx_at t) 0
  have q1 : win2_3.index t (1 : Fin 2) = t.val % 16 := congrFun (idx_at t) 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- After the region every block of its output array has been written: the array is the product of the entry token
    array and the entry weight array, plus the entry bias row. -/
theorem final (c : Dev nD) : (dat2 V c).arrAt 3 cfg2.N = arrY2 (V c main_v3) (V c main_v2) (V c main_v1) := by
  exact (dat2 V c).arrAt_eq_of_cover 3 (arrY2 (V c main_v3) (V c main_v2) (V c main_v1))
    (fun t _ => flushed_eq V c t) cover

end Cert.KernelIdeal.R2

end
-- ==== Proof.Glue.lean ====
/-
  The kernel program's result, traced back through @main. The result buffer is the product array unflattened; the
  product array is what the third region leaves, computed from the arrays the first two regions left (the binarized
  weights, the binarized token matrix) and the bias row; those were computed from the weights as launched and from the
  activations and the bias as the first host lines flattened them. No later segment touches an array once it is written,
  so each is read at the boundary where it was made.
-/
import proofs.«131410_j6047313952873_1_alg».proof.Proof.Gen.KernelIdeal.Frame
import proofs.«131410_j6047313952873_1_alg».proof.Proof.Spec
import proofs.«131410_j6047313952873_1_alg».proof.Proof.Bridge
import proofs.«131410_j6047313952873_1_alg».proof.Proof.R0Value
import proofs.«131410_j6047313952873_1_alg».proof.Proof.R1Value
import proofs.«131410_j6047313952873_1_alg».proof.Proof.R2Value
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## After the first host lines -/

/-- The token matrix is the activations flattened. -/
theorem W1_v0 (c : Dev nD) : W1 m ρ c (Proc.devRef .tc main_v0)
    = shapeCast S8192x4096 (m ((c : Thread nD τ).loc main_arg0)) shapeCasts_S4x2048x4096_S8192x4096 := by
  show StableHlo.after hostOps0 (W0 m ρ c) (Proc.devRef .tc main_v0) = _
  after_results
  rfl

/-- The bias row is the bias with a unit axis in front. -/
theorem W1_v1 (c : Dev nD) : W1 m ρ c (Proc.devRef .tc main_v1)
    = shapeCast S1x16384 (m ((c : Thread nD τ).loc main_arg2)) shapeCasts_S16384_S1x16384 := by
  show StableHlo.after hostOps0 (W0 m ρ c) (Proc.devRef .tc main_v1) = _
  after_results
  rfl

/-- The weights are as launched. -/
theorem W1_arg1 (c : Dev nD) : W1 m ρ c (Proc.devRef .tc main_arg1) = m ((c : Thread nD τ).loc main_arg1) := by
  show StableHlo.after hostOps0 (W0 m ρ c) (Proc.devRef .tc main_arg1) = _
  after_results

/-! ## What each region finds and leaves -/

/-- The second region finds the token matrix untouched by the first. -/
theorem V2_v0 (c : Dev nD) : V2 m ρ c main_v0
    = shapeCast S8192x4096 (m ((c : Thread nD τ).loc main_arg0)) shapeCasts_S4x2048x4096_S8192x4096 :=
  (W2_of_ne m ρ c main_v0 (by decide)).trans (W1_v0 m ρ c)

/-- The third region finds the binarized token matrix the second left. -/
theorem V3_v3 (c : Dev nD) : V3 m ρ c main_v3
    = arrX2 (shapeCast S8192x4096 (m ((c : Thread nD τ).loc main_arg0)) shapeCasts_S4x2048x4096_S8192x4096) :=
  (W3_arr m ρ c 1).trans ((R1.final (V2 m ρ) c).trans (congrArg arrX2 (V2_v0 m ρ c)))

/-- The third region finds the binarized weights the first left, untouched by the second. -/
theorem V3_v2 (c : Dev nD) : V3 m ρ c main_v2 = arrW (m ((c : Thread nD τ).loc main_arg1)) :=
  (W3_of_ne m ρ c main_v2 (by decide)).trans
    ((W2_arr m ρ c 1).trans ((R0.final (V1 m ρ) c).trans (congrArg arrW (W1_arg1 m ρ c))))

/-- The third region finds the bias row untouched by the first two. -/
theorem V3_v1 (c : Dev nD) : V3 m ρ c main_v1
    = shapeCast S1x16384 (m ((c : Thread nD τ).loc main_arg2)) shapeCasts_S16384_S1x16384 :=
  (W3_of_ne m ρ c main_v1 (by decide)).trans ((W2_of_ne m ρ c main_v1 (by decide)).trans (W1_v1 m ρ c))

/-- The third region leaves the product of what it found, plus the bias row. -/
theorem W4_v4 (c : Dev nD) : W4 m ρ c (Proc.devRef .tc main_v4)
    = arrY2 (V3 m ρ c main_v3) (V3 m ρ c main_v2) (V3 m ρ c main_v1) :=
  (W4_arr m ρ c 3).trans (R2.final (V3 m ρ) c)

/-! ## The result -/

/-- The result buffer is the product array unflattened. -/
theorem W5_v5 (c : Dev nD) : W5 m ρ c (Proc.devRef .tc main_v5)
    = shapeCast S4x2048x16384 (W4 m ρ c (Proc.devRef .tc main_v4)) shapeCasts_S8192x16384_S4x2048x16384 := by
  show StableHlo.after hostOps3 (W4 m ρ c) (Proc.devRef .tc main_v5) = _
  after_results
  rfl

/-- The kernel program's result buffer at the last boundary is the layer's output of the launch arguments. -/
theorem result (c : Dev nD) : W5 m ρ c (Proc.devRef .tc main_v5)
    = arrOut (m ((c : Thread nD τ).loc main_arg0)) (m ((c : Thread nD τ).loc main_arg1)) (m ((c : Thread nD τ).loc main_arg2)) := by
  rw [W5_v5, W4_v4, V3_v3, V3_v2, V3_v1]
  exact Cert.Bridge.out_eq _ _ _ _ _ _

end Cert.KernelIdeal.Glue

end
-- ==== Proof.RefSide.lean ====
/-
  The reference program's result is the layer's output: read index by index, its operations are the binarization of the
  weights per column and of the activations per token, their contraction over the model dimension, and the bias.
-/
import proofs.«131410_j6047313952873_1_alg».proof.Proof.Gen.ReferenceIdeal.Run
import proofs.«131410_j6047313952873_1_alg».proof.Proof.Gen.ReferenceIdeal.Read
import proofs.«131410_j6047313952873_1_alg».proof.Proof.Spec
import proofs.«131410_j6047313952873_1_alg».proof.Proof.LibMaxAxes
import Idealize.ShloMosaic.Lib.ValueIdx
import Idealize.ShloMosaic.PureOps.Ideal.Laws

set_option maxRecDepth 16384

noncomputable section

namespace Cert.RefSide

open Idealize.ShloMosaic Idealize.ShloMosaic.ValueIdx
open Cert.ReferenceIdeal Cert.ReferenceIdeal.Read Cert.Spec

/-! ## The layout operations' source indices, at an index given by its coordinates -/

/-- A column's scale, one row [1, 16384], broadcast down the 4096 rows: entry (d, f) reads (0, f). -/
theorem idx_v7_ix (d : Fin 4096) (f : Fin 16384) : idx_main_v7 (ix2 d f) = ix2 (0 : Fin 1) f :=
  funext fun a => Fin.ext (by match a with | ⟨0, _⟩ => rfl | ⟨1, _⟩ => rfl)

/-- The same broadcast, used a second time for the division back. -/
theorem idx_v13_ix (d : Fin 4096) (f : Fin 16384) : idx_main_v13 (ix2 d f) = ix2 (0 : Fin 1) f :=
  funext fun a => Fin.ext (by match a with | ⟨0, _⟩ => rfl | ⟨1, _⟩ => rfl)

/-- The column maxima [16384] as a row [1, 16384]: entry (0, f) reads f. -/
theorem idx_v2_ix (f : Fin 16384) : idx_main_v2 (ix2 (0 : Fin 1) f) = ix1 f :=
  funext fun a => Fin.ext (by match a with | ⟨0, _⟩ => rfl)

/-- A token's scale, [4, 2048, 1], broadcast along the 4096 model coordinates: (b, s, d) reads (b, s, 0). -/
theorem idx_v22_ix (b : Fin 4) (s : Fin 2048) (d : Fin 4096) : idx_main_v22 (ix3 b s d) = ix3 b s (0 : Fin 1) :=
  funext fun a => Fin.ext (by match a with | ⟨0, _⟩ => rfl | ⟨1, _⟩ => rfl | ⟨2, _⟩ => rfl)

/-- The same broadcast, used a second time for the division back. -/
theorem idx_v28_ix (b : Fin 4) (s : Fin 2048) (d : Fin 4096) : idx_main_v28 (ix3 b s d) = ix3 b s (0 : Fin 1) :=
  funext fun a => Fin.ext (by match a with | ⟨0, _⟩ => rfl | ⟨1, _⟩ => rfl | ⟨2, _⟩ => rfl)

/-- The token maxima [4, 2048] with a unit axis appended: (b, s, 0) reads (b, s). -/
theorem idx_v17_ix (b : Fin 4) (s : Fin 2048) : idx_main_v17 (ix3 b s (0 : Fin 1)) = ix2 b s :=
  funext fun a => Fin.ext (by match a with | ⟨0, _⟩ => rfl | ⟨1, _⟩ => rfl)

/-- The contraction's left operand at (b, s, f) and contracted coordinate k is read at (b, s, k). -/
theorem lidx_v30_ix (b : Fin 4) (s : Fin 2048) (f : Fin 16384) (k : Fin 4096) :
    lidx_main_v30 (ix3 b s f) k = ix3 b s k :=
  funext fun a => Fin.ext (by match a with | ⟨0, _⟩ => rfl | ⟨1, _⟩ => rfl | ⟨2, _⟩ => rfl)

/-- The contraction's right operand at (b, s, f) and contracted coordinate k is read at (k, f). -/
theorem ridx_v30_ix (b : Fin 4) (s : Fin 2048) (f : Fin 16384) (k : Fin 4096) :
    ridx_main_v30 (ix3 b s f) k = ix2 k f :=
  funext fun a => Fin.ext (by match a with | ⟨0, _⟩ => rfl | ⟨1, _⟩ => rfl)

/-- The bias [16384] broadcast to [1, 1, 16384] and then over batch and position: (b, s, f) reads f. -/
theorem idx_v31_v32_ix (b : Fin 4) (s : Fin 2048) (f : Fin 16384) :
    idx_main_v31 (idx_main_v32 (ix3 b s f)) = ix1 f :=
  funext fun a => Fin.ext (by match a with | ⟨0, _⟩ => rfl)

/-! ## The two maxima -/

/-- The reference's maximum over a column of the magnitudes of the weights is the column's largest magnitude. -/
theorem v1_ix (K : (⟨S4096x16384, .f32⟩ : BufTy).Contents (Elt Ideal)) (f : Fin 16384) :
    val_main_v1 (F := Ideal) K (ix1 f) = peak fun d' : Fin 4096 => K (ix2 d' f) := by
  unfold val_main_v1
  refine (hostReduce_max_rows_apply (val_main_v0 (F := Ideal) K) (val_main_cst (F := Ideal))
    _ (by decide) _ f).trans ?_
  rfl

/-- The reference's maximum over a token's row of the magnitudes of the activations is the row's largest magnitude. -/
theorem v16_ix (X : (⟨S4x2048x4096, .f32⟩ : BufTy).Contents (Elt Ideal)) (b : Fin 4) (s : Fin 2048) :
    val_main_v16 (F := Ideal) X (ix2 b s) = peak fun d' : Fin 4096 => X (ix3 b s d') := by
  unfold val_main_v16
  refine (hostReduce_max_last3_apply (val_main_v15 (F := Ideal) X) (val_main_cst_5 (F := Ideal))
    _ (by decide) _ b s).trans ?_
  rfl

/-! ## The scales -/

/-- The reference's row of column scales [1, 16384] at (0, f): one over the column's largest magnitude plus epsilon. -/
theorem v6_ix (K : (⟨S4096x16384, .f32⟩ : BufTy).Contents (Elt Ideal)) (f : Fin 16384) :
    val_main_v6 (F := Ideal) K (ix2 (0 : Fin 1) f) = scale (peak fun d' : Fin 4096 => K (ix2 d' f)) := by
  rw [val_main_v6_apply, val_main_v5_apply, val_main_cst_1_apply, val_main_v4_apply, val_main_v3_apply,
    val_main_cst_0_apply, val_main_v2_apply, idx_v2_ix, v1_ix]
  rfl

/-- The reference's token scales [4, 2048, 1] at (b, s, 0): one over the row's largest magnitude plus epsilon. -/
theorem v21_ix (X : (⟨S4x2048x4096, .f32⟩ : BufTy).Contents (Elt Ideal)) (b : Fin 4) (s : Fin 2048) :
    val_main_v21 (F := Ideal) X (ix3 b s (0 : Fin 1)) = scale (peak fun d' : Fin 4096 => X (ix3 b s d')) := by
  rw [val_main_v21_apply, val_main_v20_apply, val_main_cst_7_apply, val_main_v19_apply, val_main_v18_apply,
    val_main_cst_6_apply, val_main_v17_apply, idx_v17_ix, v16_ix]
  rfl

/-! ## The binarized operands -/

/-- (W) The reference's stages over the weights, read at (d, f): the entry, scaled by its column's scale, clipped,
    floored, shifted by one half and scaled back. -/
theorem W_ix (K : (⟨S4096x16384, .f32⟩ : BufTy).Contents (Elt Ideal)) (d : Fin 4096) (f : Fin 16384) :
    val_main_v14 (F := Ideal) K (ix2 d f) = binW K d f := by
  rw [val_main_v14_apply, val_main_v13_apply, idx_v13_ix, val_main_v12_apply, val_main_v11_apply, val_main_cst_4_apply,
    val_main_v10_apply, val_main_v9_apply, val_main_call0_v4_apply, val_main_call0_v3_apply, val_main_cst_3_apply,
    val_main_call0_v2_apply, val_main_call0_v1_apply, val_main_call0_v0_apply, val_main_cst_2_apply,
    val_main_v8_apply, val_main_v7_apply, idx_v7_ix, v6_ix]
  rfl

/-- (A) The reference's stages over the activations, read at (b, s, d): the entry, scaled by its token's scale, clipped,
    floored, shifted by one half and scaled back. -/
theorem A_ix (X : (⟨S4x2048x4096, .f32⟩ : BufTy).Contents (Elt Ideal)) (b : Fin 4) (s : Fin 2048) (d : Fin 4096) :
    val_main_v29 (F := Ideal) X (ix3 b s d) = binX3 X b s d := by
  rw [val_main_v29_apply, val_main_v28_apply, idx_v28_ix, val_main_v27_apply, val_main_v26_apply, val_main_cst_10_apply,
    val_main_v25_apply, val_main_v24_apply, val_main_call1_v4_apply, val_main_call1_v3_apply, val_main_cst_9_apply,
    val_main_call1_v2_apply, val_main_call1_v1_apply, val_main_call1_v0_apply, val_main_cst_8_apply,
    val_main_v23_apply, val_main_v22_apply, idx_v22_ix, v21_ix]
  rfl

/-- The reference's last stage, as a function of the three argument arrays, is the layer's output array. -/
theorem ref_eq (X : (⟨S4x2048x4096, .f32⟩ : BufTy).Contents (Elt Ideal)) (K : (⟨S4096x16384, .f32⟩ : BufTy).Contents (Elt Ideal))
    (β : (⟨S16384, .f32⟩ : BufTy).Contents (Elt Ideal)) :
    val_main_v33 (F := Ideal) X K β = arrOut X K β := by
  funext i
  obtain ⟨b, s, f, rfl⟩ : ∃ (b : Fin 4) (s : Fin 2048) (f : Fin 16384), i = ix3 b s f := ⟨i 0, i 1, i 2, eq_ix3 i⟩
  rw [arrOut_ix, val_main_v33_apply, val_main_v30_apply, val_main_v32_apply, val_main_v31_apply, idx_v31_v32_ix]
  unfold out3
  refine congrArg (· + β (ix1 f)) (Finset.sum_congr rfl fun k _ => ?_)
  rw [lidx_v30_ix, ridx_v30_ix, A_ix, W_ix]

end Cert.RefSide

end
-- ==== Proof.lean ====
/-
  A linear layer with binarized weights and activations: both programs compute, at token `(b, s)` and feature `f`,
  the dot product over the model dimension of the token's activations binarized within the token and the feature's
  weights binarized within the feature's column, plus the feature's bias. "Binarized within a group" means scaled by
  one over the group's largest magnitude plus ε, clipped to ±0.999, floored, shifted by one half and scaled back.

  The kernel program does this in three grids over matrices — the weights column block by column block, the flattened
  activations row block by row block, then the product tile by tile with the whole model dimension in one contraction —
  between a flattening and an unflattening; the reference does it in one pass over the arrays as given. On the extended
  reals the two agree entry by entry: every operation is the same function on both sides (a narrowing of the format is
  the identity, a contraction is the same sum whichever unit takes it), a block of the first two grids holds whole
  groups, so a group's largest magnitude in its block is its largest magnitude in the array, and the flattening is a
  re-indexing. No law that could fail at an infinity is used, so the inputs' finiteness is not needed.
-/
import proofs.«131410_j6047313952873_1_alg».proof.Defs
import proofs.«131410_j6047313952873_1_alg».proof.Proof.Gen.Kernel
import proofs.«131410_j6047313952873_1_alg».proof.Proof.Gen.Kernel.Frame
import proofs.«131410_j6047313952873_1_alg».proof.Proof.Gen.KernelIdeal
import proofs.«131410_j6047313952873_1_alg».proof.Proof.Gen.KernelIdeal.Frame
import proofs.«131410_j6047313952873_1_alg».proof.Proof.Gen.ReferenceIdeal
import proofs.«131410_j6047313952873_1_alg».proof.Proof.Gen.ReferenceIdeal.Run
import proofs.«131410_j6047313952873_1_alg».proof.Proof.Gen.ReferenceIdeal.Read
import proofs.«131410_j6047313952873_1_alg».proof.Proof.Gen.Pre_finite_inputs
import proofs.«131410_j6047313952873_1_alg».proof.Proof.RunResult
import proofs.«131410_j6047313952873_1_alg».proof.Proof.Glue
import proofs.«131410_j6047313952873_1_alg».proof.Proof.RefSide
import Idealize.ShloMosaic.Adequacy
import Idealize.ShloMosaic.Init

noncomputable section

namespace Cert.Proof

open Idealize.ShloMosaic Idealize.SL.Sem

/-- The kernel program runs, and leaves in its result buffer the layer's output of its arguments, the arguments
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v5)
            = Cert.Spec.arrOut (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono
    (fun r h c => ⟨(h c).1.trans (Cert.KernelIdeal.Glue.result m ρ c), (h c).2⟩)
    (Cert.KernelIdeal.RunResult.run_result (F := Ideal) m ρ)

/-- The two idealized programs, from memories that agree on the arguments, end with the same result: the layer's
    output of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.arrOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v33_eq, Cert.RefSide.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2)
    (Cert.ReferenceIdeal.Value.run (F := Ideal) m ρ),
  trivial,
  algebraic⟩

end Cert.Proof

end
